-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x9 : Shape := ⟨2, ![500000, 9]⟩
abbrev S500000x1 : Shape := ⟨2, ![500000, 1]⟩
abbrev S1024x16 : Shape := ⟨2, ![1024, 16]⟩
abbrev S500000 : Shape := ⟨1, ![500000]⟩
abbrev S35x512 : Shape := ⟨2, ![35, 512]⟩
abbrev S512 : Shape := ⟨1, ![512]⟩
abbrev S512x512 : Shape := ⟨2, ![512, 512]⟩
abbrev S_ : Shape := ⟨0, ![]⟩

class Facts : Prop where
  bcast_S_S500000x9 : S_.BroadcastsInDim S500000x9 (![] : Fin 0 → Fin S500000x9.rank)
  reducesTo_S500000x9_S_d0_1 : S500000x9.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  bcast_S_S1024x16 : S_.BroadcastsInDim S1024x16 (![] : Fin 0 → Fin S1024x16.rank)
  reducesTo_S1024x16_S_d0_1 : S1024x16.ReducesTo [0, 1] S_
  bcast_S_S35x512 : S_.BroadcastsInDim S35x512 (![] : Fin 0 → Fin S35x512.rank)
  reducesTo_S35x512_S_d0_1 : S35x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S35x512 .f32) (main_arg6 : FVec F S512 .f32) (main_arg7 : FVec F S512x512 .f32) (main_arg8 : FVec F S512 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S35x512 .f32 := Host.absf main_arg5
  let main_cst_6 : FVec F S_ .f32 := constant S_ .f32 0x7F800000#32
  let main_v20 : FVec F S35x512 .f32 := broadcastInDim S35x512 ![] bcast_S_S35x512 main_cst_6
  let main_v21 : IVec S35x512 1 := cmpf .olt main_v19 main_v20
  let main_c_7 : IVec S_ 1 := constantI S_ 1 1#1
  let main_v22 : IVec S_ 1 := (fun x v => Host.reduce IntOp.andi x v reducesTo_S35x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_v33

def fn {F : FTy → Type} [FloatOps F] (main_arg0 : FVec F S500000x9 .f32) (main_arg1 : FVec F S500000x9 .f32) (main_arg2 : FVec F S500000x1 .f32) (main_arg3 : FVec F S1024x16 .f32) (main_arg4 : IVec S500000 32) (main_arg5 : FVec F S35x512 .f32) (main_arg6 : FVec F S512 .f32) (main_arg7 : FVec F S512x512 .f32) (main_arg8 : FVec F S512 .f32) : IVec S_ 1 :=
  let main_v0 : FVec F S500000x9 .f32 := Host.absf main_arg0
  let main_cst : FVec F S_ .f32 := constant S_ .f32 0x7F800000#32
  let main_v1 : FVec F S500000x9 .f32 := broadcastInDim S500000x9 ![] bcast_S_S500000x9 main_cst
  let main_v2 : IVec S500000x9 1 := cmpf .olt main_v0 main_v1
  let main_c : IVec S_ 1 := constantI S_ 1 1#1
  let main_v3 : IVec S_ 1 := (fun x v => Host.reduce IntOp.andi x v reducesTo_S500000x9_S_d0_1 h_S_) main_v2 main_c
  let main_v4 : FVec F S500000x9 .f32 := Host.absf main_arg1
  let main_cst_0 : FVec F S_ .f32 := constant S_ .f32 0x7F800000#32
  let main_v5 : FVec F S500000x9 .f32 := broadcastInDim S500000x9 ![] bcast_S_S500000x9 main_cst_0
  let main_v6 : IVec S500000x9 1 := cmpf .olt main_v4 main_v5
  let main_c_1 : IVec S_ 1 := constantI S_ 1 1#1
  let main_v7 : IVec S_ 1 := (fun x v => Host.reduce IntOp.andi x v reducesTo_S500000x9_S_d0_1 h_S_) main_v6 main_c_1
  let main_v8 : IVec S_ 1 := andi main_v3 main_v7
  let main_v9 : FVec F S500000x1 .f32 := Host.absf main_arg2
  let main_cst_2 : FVec F S_ .f32 := constant S_ .f32 0x7F800000#32
  let main_v10 : FVec F S500000x1 .f32 := broadcastInDim S500000x1 ![] bcast_S_S500000x1 main_cst_2
  let main_v11 : IVec S500000x1 1 := cmpf .olt main_v9 main_v10
  let main_c_3 : IVec S_ 1 := constantI S_ 1 1#1
  let main_v12 : IVec S_ 1 := (fun x v => Host.reduce IntOp.andi x v reducesTo_S500000x1_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg5 main_arg6 main_arg7 main_arg8 main_v13 main_v16
-- ==== Kernel.lean ====
abbrev S500000x9 : Shape := ⟨2, ![500000, 9]⟩
abbrev S500000x1 : Shape := ⟨2, ![500000, 1]⟩
abbrev S1024x16 : Shape := ⟨2, ![1024, 16]⟩
abbrev S500000 : Shape := ⟨1, ![500000]⟩
abbrev S35x512 : Shape := ⟨2, ![35, 512]⟩
abbrev S512 : Shape := ⟨1, ![512]⟩
abbrev S512x512 : Shape := ⟨2, ![512, 512]⟩
abbrev S_ : Shape := ⟨0, ![]⟩
abbrev S500000x16 : Shape := ⟨2, ![500000, 16]⟩
abbrev S500000x35 : Shape := ⟨2, ![500000, 35]⟩
abbrev S1x512 : Shape := ⟨2, ![1, 512]⟩
abbrev S500000x512 : Shape := ⟨2, ![500000, 512]⟩
abbrev S4096x35 : Shape := ⟨2, ![4096, 35]⟩
abbrev S4096x512 : Shape := ⟨2, ![4096, 512]⟩

abbrev nBuf : Space → Nat
  | .hbm => 25
  | .vmem => 8
  | .smem => 0
  | _ => 0

abbrev bufTy : (tb : Table) → Fin (tcTables nBuf tb) → BufTy
  | .hbm, ⟨0, _⟩ => ⟨S500000x9, .f32⟩
  | .hbm, ⟨1, _⟩ => ⟨S500000x9, .f32⟩
  | .hbm, ⟨2, _⟩ => ⟨S500000x1, .f32⟩
  | .hbm, ⟨3, _⟩ => ⟨S1024x16, .f32⟩
  | .hbm, ⟨4, _⟩ => ⟨S500000, .i32⟩
  | .hbm, ⟨5, _⟩ => ⟨S35x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x16, .f32⟩
  | .hbm, ⟨18, _⟩ => ⟨S500000x35, .f32⟩
  | .hbm, ⟨19, _⟩ => ⟨S500000x35, .bf16⟩
  | .hbm, ⟨20, _⟩ => ⟨S35x512, .bf16⟩
  | .hbm, ⟨21, _⟩ => ⟨S512x512, .bf16⟩
  | .hbm, ⟨22, _⟩ => ⟨S1x512, .f32⟩
  | .hbm, ⟨23, _⟩ => ⟨S1x512, .f32⟩
  | .hbm, ⟨24, _⟩ => ⟨S500000x512, .f32⟩
  | .local _ .vmem, ⟨0, _⟩ => ⟨S4096x35, .bf16⟩
  | .local _ .vmem, ⟨1, _⟩ => ⟨S4096x35, .bf16⟩
  | .local _ .vmem, ⟨2, _⟩ => ⟨S35x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S4096x512, .f32⟩
  | .local _ .vmem, ⟨7, _⟩ => ⟨S4096x512, .f32⟩
  | _, _ => ⟨S500000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x35 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S35x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x9_S500000x9_S500000x1_S500000x16_S500000x35_d1 : Shape.Concatenates [S500000x9, S500000x9, S500000x1, S500000x16] S500000x35 1
  bitsLt_bf16_f32 : FTy.bits .bf16 < FTy.bits .f32
  shapeCasts_S512_S1x512 : S512.ShapeCasts S1x512
  inb_S4096x35_S4096x35_0_0 : ∀ a, (![0, 0] : Fin 2 → Nat) a + S4096x35.size a ≤ S4096x35.size a
  h_S4096x35 : 0 < S4096x35.numel
  shapeCasts_S4096x35_S4096x35 : S4096x35.ShapeCasts S4096x35
  inb_S35x512_S35x512_0_0 : ∀ a, (![0, 0] : Fin 2 → Nat) a + S35x512.size a ≤ S35x512.size a
  h_S35x512 : 0 < S35x512.numel
  shapeCasts_S35x512_S35x512 : S35x512.ShapeCasts S35x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4096x512_S4096x512_0_0 : ∀ a, (![0, 0] : Fin 2 → Nat) a + S4096x512.size a ≤ S4096x512.size a
  h_S4096x512 : 0 < S4096x512.numel
  gather_S1024x16_S500000x1_S500000x16_1_0_n_n_0_1_116_wf : GatherDims.WF S1024x16 S500000x1 S500000x16 [1] [0] [] [0] [] 1 ![1, 16]
  dot_S4096x35_S35x512_S4096x512_1_0_0_1_n_n_wf : DotDims.WF S4096x35 S35x512 S4096x512 [1] [0] [0] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x35.size a < S500000x35.size a
  hwx0_0 : ∀ i : grid0.Coords, EltTy.bits .bf16 = 32 ∨ (Rect.unit (s := S500000x35) (fun a => cc0_transform_0 i a * S4096x35.size a) (fun a => (Pipeline.Clip.of (cc0_transform_0 i a) (S4096x35.size a) (S500000x35.size a)).extent (S4096x35.size a)) fun a => Pipeline.Clip.inb (Pipeline.Clip.ok_of (hstart0_0 i a))).WholeWords (EltTy.packing .bf16)
  hwxs0_0 : ∀ i : grid0.Coords, EltTy.bits .bf16 = 32 ∨ (Rect.unit (s := S4096x35) (fun _ => 0) (fun a => (Pipeline.Clip.of (cc0_transform_0 i a) (S4096x35.size a) (S500000x35.size a)).extent (S4096x35.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S35x512.size a ≤ S35x512.size a
  hwx0_1 : ∀ i : grid0.Coords, EltTy.bits .bf16 = 32 ∨ (Rect.block (s := S35x512) S35x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S4096x512.size a < S500000x512.size a
  hwx0_5 : ∀ i : grid0.Coords, EltTy.bits .f32 = 32 ∨ (Rect.unit (s := S500000x512) (fun a => cc0_transform_5 i a * S4096x512.size a) (fun a => (Pipeline.Clip.of (cc0_transform_5 i a) (S4096x512.size a) (S500000x512.size a)).extent (S4096x512.size a)) fun a => Pipeline.Clip.inb (Pipeline.Clip.ok_of (hstart0_5 i a))).WholeWords (EltTy.packing .f32)
  hwxs0_5 : ∀ i : grid0.Coords, EltTy.bits .f32 = 32 ∨ (Rect.unit (s := S4096x512) (fun _ => 0) (fun a => (Pipeline.Clip.of (cc0_transform_5 i a) (S4096x512.size a) (S500000x512.size a)).extent (S4096x512.size a)) fun a => (Nat.zero_add _).trans_le (Pipeline.Clip.extent_le (Pipeline.Clip.ok_of (hstart0_5 i a)))).WholeWords (EltTy.packing .f32)

variable [Facts₀]

def gather_S1024x16_S500000x1_S500000x16_1_0_n_n_0_1_116 : GatherDims S1024x16 S500000x1 S500000x16 where
  offsetDims := [1]
  collapsedSliceDims := [0]
  operandBatchingDims := []
  startIndicesBatchingDims := []
  startIndexMap := [0]
  indexVectorDim := 1
  sliceSizes := ![1, 16]
  wf := gather_S1024x16_S500000x1_S500000x16_1_0_n_n_0_1_116_wf
def dot_S4096x35_S35x512_S4096x512_1_0_0_1_n_n : DotDims S4096x35 S35x512 S4096x512 where
  lhsContracting := [1]
  rhsContracting := [0]
  lhsNonContracting := [0]
  rhsNonContracting := [1]
  lhsBatch := []
  rhsBatch := []
  wf := dot_S4096x35_S35x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpecClip (Memref.whole main_v8) S4096x35.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v9) S35x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v13) S4096x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x9 : Shape := ⟨2, ![500000, 9]⟩
abbrev S500000x1 : Shape := ⟨2, ![500000, 1]⟩
abbrev S1024x16 : Shape := ⟨2, ![1024, 16]⟩
abbrev S500000 : Shape := ⟨1, ![500000]⟩
abbrev S35x512 : Shape := ⟨2, ![35, 512]⟩
abbrev S512 : Shape := ⟨1, ![512]⟩
abbrev S512x512 : Shape := ⟨2, ![512, 512]⟩
abbrev S_ : Shape := ⟨0, ![]⟩
abbrev S500000x16 : Shape := ⟨2, ![500000, 16]⟩
abbrev S500000x35 : Shape := ⟨2, ![500000, 35]⟩
abbrev S500000x512 : Shape := ⟨2, ![500000, 512]⟩
abbrev S1x512 : Shape := ⟨2, ![1, 512]⟩

abbrev nBuf : Space → Nat
  | .hbm => 30
  | .vmem => 0
  | .smem => 0
  | _ => 0

abbrev bufTy : (tb : Table) → Fin (tcTables nBuf tb) → BufTy
  | .hbm, ⟨0, _⟩ => ⟨S500000x9, .f32⟩
  | .hbm, ⟨1, _⟩ => ⟨S500000x9, .f32⟩
  | .hbm, ⟨2, _⟩ => ⟨S500000x1, .f32⟩
  | .hbm, ⟨3, _⟩ => ⟨S1024x16, .f32⟩
  | .hbm, ⟨4, _⟩ => ⟨S500000, .i32⟩
  | .hbm, ⟨5, _⟩ => ⟨S35x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x16, .f32⟩
  | .hbm, ⟨18, _⟩ => ⟨S500000x35, .f32⟩
  | .hbm, ⟨19, _⟩ => ⟨S500000x512, .f32⟩
  | .hbm, ⟨20, _⟩ => ⟨S1x512, .f32⟩
  | .hbm, ⟨21, _⟩ => ⟨S500000x512, .f32⟩
  | .hbm, ⟨22, _⟩ => ⟨S500000x512, .f32⟩
  | .hbm, ⟨23, _⟩ => ⟨S_, .f32⟩
  | .hbm, ⟨24, _⟩ => ⟨S500000x512, .f32⟩
  | .hbm, ⟨25, _⟩ => ⟨S500000x512, .f32⟩
  | .hbm, ⟨26, _⟩ => ⟨S500000x512, .f32⟩
  | .hbm, ⟨27, _⟩ => ⟨S1x512, .f32⟩
  | .hbm, ⟨28, _⟩ => ⟨S500000x512, .f32⟩
  | .hbm, ⟨29, _⟩ => ⟨S500000x512, .f32⟩
  | _, _ => ⟨S500000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x9_S500000x9_S500000x1_S500000x16_S500000x35_d1 : Shape.Concatenates [S500000x9, S500000x9, S500000x1, S500000x16] S500000x35 1
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  gather_S1024x16_S500000x1_S500000x16_1_0_n_n_0_1_116_wf : GatherDims.WF S1024x16 S500000x1 S500000x16 [1] [0] [] [0] [] 1 ![1, 16]
  dot_S500000x35_S35x512_S500000x512_1_0_0_1_n_n_wf : DotDims.WF S500000x35 S35x512 S500000x512 [1] [0] [0] [1] [] []
  dot_S500000x512_S512x512_S500000x512_1_0_0_1_n_n_wf : DotDims.WF S500000x512 S512x512 S500000x512 [1] [0] [0] [1] [] []

variable [Facts₀]

def gather_S1024x16_S500000x1_S500000x16_1_0_n_n_0_1_116 : GatherDims S1024x16 S500000x1 S500000x16 where
  offsetDims := [1]
  collapsedSliceDims := [0]
  operandBatchingDims := []
  startIndicesBatchingDims := []
  startIndexMap := [0]
  indexVectorDim := 1
  sliceSizes := ![1, 16]
  wf := gather_S1024x16_S500000x1_S500000x16_1_0_n_n_0_1_116_wf
def dot_S500000x35_S35x512_S500000x512_1_0_0_1_n_n : DotDims S500000x35 S35x512 S500000x512 where
  lhsContracting := [1]
  rhsContracting := [0]
  lhsNonContracting := [0]
  rhsNonContracting := [1]
  lhsBatch := []
  rhsBatch := []
  wf := dot_S500000x35_S35x512_S500000x512_1_0_0_1_n_n_wf
def dot_S500000x512_S512x512_S500000x512_1_0_0_1_n_n : DotDims S500000x512 S512x512 S500000x512 where
  lhsContracting := [1]
  rhsContracting := [0]
  lhsNonContracting := [0]
  rhsNonContracting := [1]
  lhsBatch := []
  rhsBatch := []
  wf := dot_S500000x512_S512x512_S500000x512_1_0_0_1_n_n_wf

class Facts : Prop extends Facts₀ where

variable [Facts]
-- ==== Proof.KKit.lean ====
/-
  The program up to its one kernel region, and what the region finds.
  @main is fifteen host operations (the index normalisation, the row gather of the per-graph features, the
  concatenation into the 35-column feature matrix, three changes of float format and two reshapes of the biases)
  followed by the kernel region. `V m c b` is buffer `b` of device `c` after those operations, started from the
  launch memory `m`; `hmain` says @main reduces to the region entered at `V`. Each of the nine argument buffers is
  the result of no host operation, so the region finds it as launched (`V_main_arg0` … `V_main_arg8`), and a final
  state in which every buffer outside the kernel's windows holds its region-entry contents therefore holds the
  arguments unchanged (`args_kept`).
-/
import proofs.«412488_j67791763800205_3_alg».proof.Proof.Gen.Kernel.Launch
import proofs.«412488_j67791763800205_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## @main up to the region -/

/-- Device `c`'s buffers when the region is entered: the launch contents carried through the host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region entered holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes one buffer, its result, and that is none of the arguments: decided operation by operation. -/
local macro "not_written" : tactic => `(tactic| (
  simp only [hostOps0, List.flatten_cons, List.flatten_nil, List.append_nil, List.cons_append,
    List.nil_append, List.Forall, StableHlo.nullary_writes, StableHlo.unary_writes, StableHlo.binary_writes, StableHlo.ternary_writes,
    StableHlo.nary_writes, StableHlo.reshape_writes, Finset.mem_singleton]
  repeat' apply And.intro
  all_goals exact StableHlo.devRef_ne_of_ne (by decide)))

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by not_written))

/-! ## The arguments in a final state -/

/-- If every buffer that is no window's array holds what it held when the region was entered, the nine arguments hold
    what they held at launch. -/
theorem args_kept (c : Dev nD) (mem : (ℓ : Loc nD τ sig) → Buf (Elt F) ℓ)
    (h : ∀ b ∈ Pipeline.restRefs sig spec0, mem ((c : Thread nD τ).loc b) = V m c b) :
    mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_arg5) = m ((c : Thread nD τ).loc main_arg5)
    ∧ mem ((c : Thread nD τ).loc main_arg6) = m ((c : Thread nD τ).loc main_arg6)
    ∧ mem ((c : Thread nD τ).loc main_arg7) = m ((c : Thread nD τ).loc main_arg7)
    ∧ mem ((c : Thread nD τ).loc main_arg8) = m ((c : Thread nD τ).loc main_arg8) :=
  ⟨(h main_arg0 (Pipeline.mem_restRefs_of main_arg0 (by decide) (by decide))).trans (V_main_arg0 m c),
   (h main_arg1 (Pipeline.mem_restRefs_of main_arg1 (by decide) (by decide))).trans (V_main_arg1 m c),
   (h main_arg2 (Pipeline.mem_restRefs_of main_arg2 (by decide) (by decide))).trans (V_main_arg2 m c),
   (h main_arg3 (Pipeline.mem_restRefs_of main_arg3 (by decide) (by decide))).trans (V_main_arg3 m c),
   (h main_arg4 (Pipeline.mem_restRefs_of main_arg4 (by decide) (by decide))).trans (V_main_arg4 m c),
   (h main_arg5 (Pipeline.mem_restRefs_of main_arg5 (by decide) (by decide))).trans (V_main_arg5 m c),
   (h main_arg6 (Pipeline.mem_restRefs_of main_arg6 (by decide) (by decide))).trans (V_main_arg6 m c),
   (h main_arg7 (Pipeline.mem_restRefs_of main_arg7 (by decide) (by decide))).trans (V_main_arg7 m c),
   (h main_arg8 (Pipeline.mem_restRefs_of main_arg8 (by decide) (by decide))).trans (V_main_arg8 m c)⟩

end Cert.Kernel.Hand

end
-- ==== Proof.KFrame.lean ====
/-
  The kernel region's frame, for any float instance.
  The body loads its five input blocks whole (a 4096 × 35 block of feature rows, the two weight matrices and the two
  bias rows), computes one value from them (the skeleton's payload) and stores it over the whole 4096 × 512 result
  block (`sound_kernel`). The grid has 123 points over 500000 rows: the last block of the feature matrix and of the
  result overhangs the array by 3808 rows, so a fetch fills only the block's leading rows and leaves the others at
  contents nothing names, and a write-back writes only the leading rows. The proof data therefore names, after the body
  at point `t`: the feature block as fetched over a zero block (`xfill`), the four whole-array inputs at their blocks,
  and the result block as the payload of those (`dats`). The obligation for the result window asks only that the rows
  inside the array be the named ones. Two forms are proved from one run of the body (`sound_body_raw`): one that says
  nothing of the result window (`body_obligation_forget`), enough for the frame at any instance (`frame`), and one
  that names it, under the hypothesis that the payload's rows inside the array do not depend on what the block holds
  outside them (`Local`, `body_obligation_valued`, `run_valued`).
-/
import proofs.«412488_j67791763800205_3_alg».proof.Proof.KKit
import proofs.«412488_j67791763800205_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one the whole of its buffer -/

abbrev rX : Rect S4096x35 := Rect.unit (s := S4096x35) ![0, 0] S4096x35.size inb_S4096x35_S4096x35_0_0
abbrev rW1 : Rect S35x512 := Rect.unit (s := S35x512) ![0, 0] S35x512.size inb_S35x512_S35x512_0_0
abbrev rB : Rect S1x512 := Rect.unit (s := S1x512) ![0, 0] S1x512.size inb_S1x512_S1x512_0_0
abbrev rW2 : Rect S512x512 := Rect.unit (s := S512x512) ![0, 0] S512x512.size inb_S512x512_S512x512_0_0
abbrev rO : Rect S4096x512 := Rect.unit (s := S4096x512) ![0, 0] S4096x512.size inb_S4096x512_S4096x512_0_0

/-- What the result's buffer holds after the body, from what the five input buffers hold: its one store, of the
    payload of the five loads. -/
def outO (x0 : Vec F S4096x35 .bf16) (x1 : Vec F S35x512 .bf16) (x2 : Vec F S1x512 .f32) (x3 : Vec F S512x512 .bf16) (x4 : Vec F S1x512 .f32) :
    Vec F S4096x512 .f32 :=
  View.canon [⟨rO, k0_pay1 (View.ld x0 rX) (View.ld x1 rW1) (View.ld x2 rB) (View.ld x3 rW2) (View.ld x4 rB)⟩]

/-- The one store covers the buffer. -/
theorem coverO (p0 : Vec F S4096x512 .f32) (y : S4096x512.Idx) :
    ∃ pc ∈ ([⟨rO, p0⟩] : List (View.Piece (Elt F) S4096x512 .f32)), y ∈ pc.1.set :=
  View.cover_of_tiled [⟨rO, p0⟩] S4096x512.size (by rfl) y

/-! ## The body's triple -/

set_option maxHeartbeats 1000000 in
/-- The body on whole staging memrefs, the five inputs' at contents `x0` … `x4` and the result's at anything, runs to
    the continuation holding the inputs' as they were and the result's at `outO` of them. -/
theorem sound_kernel (c : Dev nD) (E : Set ℕ) (i : grid0.Coords)
    (arg1 : Memref sig .tc .vmem S4096x35 .bf16) (harg1 : arg1.IsWhole) (arg2 : Memref sig .tc .vmem S35x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S4096x512 .f32) (harg6 : arg6.IsWhole)
    (x0 : Vec F S4096x35 .bf16) (x1 : Vec F S35x512 .bf16) (x2 : Vec F S1x512 .f32) (x3 : Vec F S512x512 .bf16) (x4 : Vec F S1x512 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outO x0 x1 x2 x3 x4)) -∗ K ⟨⟩))
      ⊢ wp frame (wpE (defs₀ (F := F)) Variants.none c none) E
          (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The windows' blocks -/

/-- Window `w`'s block at point `t`, read off its array as the region finds it: for the feature matrix and the result,
    the block's part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature block at point `t` as a fetch into a zero buffer leaves it: the rows inside the array, zero below them. -/
def xfill (c : Dev nD) (t : Fin cfg0.N) : Vec F S4096x35 .bf16 :=
  win0_0.fill (grid0.coords t) (fun _ => Scalar.ofBits .bf16 0#16) (iblk m c 0 t)

/-! ## The proof data -/

/-- The proof data of the pipeline on device `c`: the arrays as the region finds them; after the body at point `t` the
    feature window's buffer at `xfill`, the other inputs' at their blocks, the result's at `outO` of those; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => outO (xfill m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outO (xfill m c t) (iblk m c 1 t) (iblk m c 2 t) (iblk m c 3 t) (iblk m c 4 t) := by dsimp only [dats]

/-! ## What the body finds in each buffer -/

/-- The feature window is fetched at every point: its buffer holds the block's rows inside the array over whatever the
    fetch left below them. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl

/-- The four whole-array inputs are fetched once and left in place: their buffers hold their blocks at every point. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- The result window is written back at every point: its buffer is fresh at each. -/
theorem before_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The body at a point -/

/-- What the body is called with at point `t`, the result's buffer at anything; -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- the same with the result's buffer stated through the proof data; -/
def bodyPreV (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- what it returns, as the run of the body gives it: for the rows `d0` the fetch left below the feature block's part
    inside the array, the inputs' buffers as found and the result's at `outO` of them; -/
def bodyRaw (c : Dev nD) (t : Fin cfg0.N) : sProp 𝕄 :=
  iprop(∃ d0 : Vec F S4096x35 .bf16, (dats m 0 c).Φ t.succ ∗ (dats m 0 c).owesAt () t.succ
    ∗ owns (c : Thread nD τ) (st0_0 t) fullShare (win0_0.fill (grid0.coords t) d0 (iblk m c 0 t))
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (outO (win0_0.fill (grid0.coords t) d0 (iblk m c 0 t)) (iblk m c 1 t) (iblk m c 2 t) (iblk m c 3 t) (iblk m c 4 t)))

/-- what the obligation asks, the result's buffer left unsaid; -/
def bodyPostF (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- and with the result's buffer named on its rows inside the array. -/
def bodyPostV (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

/-- The body at any point: the inputs' buffers hold what the `before` lemmas say, so `sound_kernel` applies; the
    invariant and what the core owes pass through unread. -/
theorem sound_body_raw (c : Dev nD) (t : Fin cfg0.N) :
    bodyPreF m c t ⊢ wp frame (wpE (defs₀ (F := F)) Variants.none c none) Set.univ (bodyAt0 t) (fun _ => bodyRaw m c t) := by
  unfold bodyPreF bodyRaw bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (win0_0.fill (grid0.coords t) d0 (iblk m c 0 t)) (iblk m c 1 t) (iblk m c 2 t)
    (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iexists d0
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The rows of the feature block inside the array are the same whatever the fetch left below them. -/
theorem cut_xfill (c : Dev nD) (t : Fin cfg0.N) : win0_0.cut (grid0.coords t) (xfill m c t) = iblk m c 0 t :=
  win0_0.cut_fill _ _ _

/-- From what the run of the body gives to what the obligation asks, the result's buffer left unsaid. -/
theorem raw_postF (c : Dev nD) (t : Fin cfg0.N) : bodyRaw m c t ⊢ bodyPostF m c t := by
  unfold bodyRaw bodyPostF
  rw [after_0, after_1, after_2, after_3, after_4, cut_xfill]
  iintro ⟨%d0, HΦ, Ho, H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists _; iexact H5

/-- The payload's rows inside the array do not depend on what the feature block holds below its rows inside the array. -/
def Local (c : Dev nD) : Prop :=
  ∀ (t : Fin cfg0.N) (d0 : Vec F S4096x35 .bf16),
    win0_5.cut (grid0.coords t) (outO (win0_0.fill (grid0.coords t) d0 (iblk m c 0 t)) (iblk m c 1 t) (iblk m c 2 t) (iblk m c 3 t) (iblk m c 4 t))
      = win0_5.cut (grid0.coords t) (outO (xfill m c t) (iblk m c 1 t) (iblk m c 2 t) (iblk m c 3 t) (iblk m c 4 t))

/-- From what the run of the body gives to what the obligation asks, the result's buffer named: under `Local`, the buffer
    is the named block on the rows inside the array, and itself below them. -/
theorem raw_postV (c : Dev nD) (hloc : Local m c) (t : Fin cfg0.N) : bodyRaw m c t ⊢ bodyPostV m c t := by
  unfold bodyRaw bodyPostV
  rw [after_0, after_1, after_2, after_3, after_4, after_5, cut_xfill]
  iintro ⟨%d0, HΦ, Ho, H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists (outO (win0_0.fill (grid0.coords t) d0 (iblk m c 0 t)) (iblk m c 1 t) (iblk m c 2 t) (iblk m c 3 t) (iblk m c 4 t))
  rw [win0_5.fill_congr_cut (grid0.coords t) (hloc t d0)]
  iexact H5

/-! ## The body obligations -/

/-- The windows the frame says nothing of: the result's. -/
abbrev fgtO : Fin cfg0.W → Bool := fun | 0 => false | 1 => false | 2 => false | 3 => false | 4 => false | 5 => true | ⟨_ + 6, h⟩ => absurd h (Nat.not_lt.2 (Nat.le_add_left _ _))

/-- The obligation with the result window forgotten, at every point. -/
theorem body_obligation_forget (c : Dev nD) :
    BodyObligationLoose (dats (F := F) m 0 c) (defs₀ (F := F)) Variants.none () Set.univ fgtO := fun t => by
  rw [bigSep_W0, bigSep_W0]
  exact (sound_body_raw m c t).trans (wp_mono _ _ _ fun _ => raw_postF m c t)

/-- The obligation with every window named, at every point, under `Local`. -/
theorem body_obligation_valued (c : Dev nD) (hloc : Local m c) :
    BodyObligationLoose (dats (F := F) m 0 c) (defs₀ (F := F)) Variants.none () Set.univ := fun t => by
  rw [bigSep_W0, bigSep_W0]
  have h : bodyPreV m c t ⊢ wp frame (wpE (defs₀ (F := F)) Variants.none c none) Set.univ (bodyAt0 t) (fun _ => bodyPostV m c t) := by
    have e : bodyPreV m c t = bodyPreF m c t := by unfold bodyPreV bodyPreF; simp only [before_5]
    rw [e]
    exact (sound_body_raw m c t).trans (wp_mono _ _ _ fun _ => raw_postV m c hloc t)
  exact h

/-! ## The runs and the frame -/

set_option backward.isDefEq.respectTransparency.types false in
/-- For any values, from any memory with zero counters: every weakly fair execution of @main terminates, and in every
    final state every buffer that is no window's array holds what the region found in it. -/
theorem run_forget : θ_run defs (onTc (τ := τ) (main (F := F))) (s₀ m ρ)
    (Pipeline.RDat.FramePost cfg0 (fun c => (dats m 0 c).toRForget fgtO) (V m)) :=
  Pipeline.RDat.θ_run_frame cfgs (0 : Fin 1) launch0 defs₀ Variants.none (fun c => (dats m 0 c).toRForget fgtO) m ρ main
    (hbody := fun c => (body_obligation_forget m c).toRForget) (hshare := fun c => (dats m 0 c).share_full fun _ => rfl)
    (howed := fun _ _ => rfl) (V := V m) (hmain := hmain m Variants.none) (hA := A_eq m) (hΦ := fun _ _ => rfl)

/-- THE FRAME, at any float instance: the program runs to the end, faults nowhere, and leaves its nine arguments as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m c r.2.mem (h c).2) (run_forget m ρ)

set_option backward.isDefEq.respectTransparency.types false in
/-- The same run with every array of the pipeline named: under `Local` on every device, in every final state each
    window's array holds what the library computes from the proof data — the result array its entry contents
    overwritten, point by point, by the rows inside the array of what the body left. -/
theorem run_valued (hloc : ∀ c, Local m c) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation_valued m c (hloc c)) (hshare := fun c => (dats m 0 c).share_full fun _ => rfl)
    (howed := fun _ _ => rfl) (V := V m) (hmain := hmain m Variants.none) (hA := A_eq m) (hΦ := fun _ _ => rfl)

end Cert.Kernel.Hand

end
-- ==== Proof.KIKit.lean ====
/-
  The program up to its one kernel region, and what the region finds.
  @main is fifteen host operations (the index normalisation, the row gather of the per-graph features, the
  concatenation into the 35-column feature matrix, three changes of float format and two reshapes of the biases)
  followed by the kernel region. `V m c b` is buffer `b` of device `c` after those operations, started from the
  launch memory `m`; `hmain` says @main reduces to the region entered at `V`. Each of the nine argument buffers is
  the result of no host operation, so the region finds it as launched (`V_main_arg0` … `V_main_arg8`), and a final
  state in which every buffer outside the kernel's windows holds its region-entry contents therefore holds the
  arguments unchanged (`args_kept`).
-/
import proofs.«412488_j67791763800205_3_alg».proof.Proof.Gen.KernelIdeal.Launch
import proofs.«412488_j67791763800205_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## @main up to the region -/

/-- Device `c`'s buffers when the region is entered: the launch contents carried through the host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region entered holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes one buffer, its result, and that is none of the arguments: decided operation by operation. -/
local macro "not_written" : tactic => `(tactic| (
  simp only [hostOps0, List.flatten_cons, List.flatten_nil, List.append_nil, List.cons_append,
    List.nil_append, List.Forall, StableHlo.nullary_writes, StableHlo.unary_writes, StableHlo.binary_writes, StableHlo.ternary_writes,
    StableHlo.nary_writes, StableHlo.reshape_writes, Finset.mem_singleton]
  repeat' apply And.intro
  all_goals exact StableHlo.devRef_ne_of_ne (by decide)))

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by not_written))

/-! ## The arguments in a final state -/

/-- If every buffer that is no window's array holds what it held when the region was entered, the nine arguments hold
    what they held at launch. -/
theorem args_kept (c : Dev nD) (mem : (ℓ : Loc nD τ sig) → Buf (Elt F) ℓ)
    (h : ∀ b ∈ Pipeline.restRefs sig spec0, mem ((c : Thread nD τ).loc b) = V m c b) :
    mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_arg5) = m ((c : Thread nD τ).loc main_arg5)
    ∧ mem ((c : Thread nD τ).loc main_arg6) = m ((c : Thread nD τ).loc main_arg6)
    ∧ mem ((c : Thread nD τ).loc main_arg7) = m ((c : Thread nD τ).loc main_arg7)
    ∧ mem ((c : Thread nD τ).loc main_arg8) = m ((c : Thread nD τ).loc main_arg8) :=
  ⟨(h main_arg0 (Pipeline.mem_restRefs_of main_arg0 (by decide) (by decide))).trans (V_main_arg0 m c),
   (h main_arg1 (Pipeline.mem_restRefs_of main_arg1 (by decide) (by decide))).trans (V_main_arg1 m c),
   (h main_arg2 (Pipeline.mem_restRefs_of main_arg2 (by decide) (by decide))).trans (V_main_arg2 m c),
   (h main_arg3 (Pipeline.mem_restRefs_of main_arg3 (by decide) (by decide))).trans (V_main_arg3 m c),
   (h main_arg4 (Pipeline.mem_restRefs_of main_arg4 (by decide) (by decide))).trans (V_main_arg4 m c),
   (h main_arg5 (Pipeline.mem_restRefs_of main_arg5 (by decide) (by decide))).trans (V_main_arg5 m c),
   (h main_arg6 (Pipeline.mem_restRefs_of main_arg6 (by decide) (by decide))).trans (V_main_arg6 m c),
   (h main_arg7 (Pipeline.mem_restRefs_of main_arg7 (by decide) (by decide))).trans (V_main_arg7 m c),
   (h main_arg8 (Pipeline.mem_restRefs_of main_arg8 (by decide) (by decide))).trans (V_main_arg8 m c)⟩

end Cert.KernelIdeal.Hand

end
-- ==== Proof.KIFrame.lean ====
/-
  The kernel region's frame, for any float instance.
  The body loads its five input blocks whole (a 4096 × 35 block of feature rows, the two weight matrices and the two
  bias rows), computes one value from them (the skeleton's payload) and stores it over the whole 4096 × 512 result
  block (`sound_kernel`). The grid has 123 points over 500000 rows: the last block of the feature matrix and of the
  result overhangs the array by 3808 rows, so a fetch fills only the block's leading rows and leaves the others at
  contents nothing names, and a write-back writes only the leading rows. The proof data therefore names, after the body
  at point `t`: the feature block as fetched over a zero block (`xfill`), the four whole-array inputs at their blocks,
  and the result block as the payload of those (`dats`). The obligation for the result window asks only that the rows
  inside the array be the named ones. Two forms are proved from one run of the body (`sound_body_raw`): one that says
  nothing of the result window (`body_obligation_forget`), enough for the frame at any instance (`frame`), and one
  that names it, under the hypothesis that the payload's rows inside the array do not depend on what the block holds
  outside them (`Local`, `body_obligation_valued`, `run_valued`).
-/
import proofs.«412488_j67791763800205_3_alg».proof.Proof.KIKit
import proofs.«412488_j67791763800205_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one the whole of its buffer -/

abbrev rX : Rect S4096x35 := Rect.unit (s := S4096x35) ![0, 0] S4096x35.size inb_S4096x35_S4096x35_0_0
abbrev rW1 : Rect S35x512 := Rect.unit (s := S35x512) ![0, 0] S35x512.size inb_S35x512_S35x512_0_0
abbrev rB : Rect S1x512 := Rect.unit (s := S1x512) ![0, 0] S1x512.size inb_S1x512_S1x512_0_0
abbrev rW2 : Rect S512x512 := Rect.unit (s := S512x512) ![0, 0] S512x512.size inb_S512x512_S512x512_0_0
abbrev rO : Rect S4096x512 := Rect.unit (s := S4096x512) ![0, 0] S4096x512.size inb_S4096x512_S4096x512_0_0

/-- What the result's buffer holds after the body, from what the five input buffers hold: its one store, of the
    payload of the five loads. -/
def outO (x0 : Vec F S4096x35 .bf16) (x1 : Vec F S35x512 .bf16) (x2 : Vec F S1x512 .f32) (x3 : Vec F S512x512 .bf16) (x4 : Vec F S1x512 .f32) :
    Vec F S4096x512 .f32 :=
  View.canon [⟨rO, k0_pay1 (View.ld x0 rX) (View.ld x1 rW1) (View.ld x2 rB) (View.ld x3 rW2) (View.ld x4 rB)⟩]

/-- The one store covers the buffer. -/
theorem coverO (p0 : Vec F S4096x512 .f32) (y : S4096x512.Idx) :
    ∃ pc ∈ ([⟨rO, p0⟩] : List (View.Piece (Elt F) S4096x512 .f32)), y ∈ pc.1.set :=
  View.cover_of_tiled [⟨rO, p0⟩] S4096x512.size (by rfl) y

/-! ## The body's triple -/

set_option maxHeartbeats 1000000 in
/-- The body on whole staging memrefs, the five inputs' at contents `x0` … `x4` and the result's at anything, runs to
    the continuation holding the inputs' as they were and the result's at `outO` of them. -/
theorem sound_kernel (c : Dev nD) (E : Set ℕ) (i : grid0.Coords)
    (arg1 : Memref sig .tc .vmem S4096x35 .bf16) (harg1 : arg1.IsWhole) (arg2 : Memref sig .tc .vmem S35x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S4096x512 .f32) (harg6 : arg6.IsWhole)
    (x0 : Vec F S4096x35 .bf16) (x1 : Vec F S35x512 .bf16) (x2 : Vec F S1x512 .f32) (x3 : Vec F S512x512 .bf16) (x4 : Vec F S1x512 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outO x0 x1 x2 x3 x4)) -∗ K ⟨⟩))
      ⊢ wp frame (wpE (defs₀ (F := F)) Variants.none c none) E
          (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The windows' blocks -/

/-- Window `w`'s block at point `t`, read off its array as the region finds it: for the feature matrix and the result,
    the block's part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature block at point `t` as a fetch into a zero buffer leaves it: the rows inside the array, zero below them. -/
def xfill (c : Dev nD) (t : Fin cfg0.N) : Vec F S4096x35 .bf16 :=
  win0_0.fill (grid0.coords t) (fun _ => Scalar.ofBits .bf16 0#16) (iblk m c 0 t)

/-! ## The proof data -/

/-- The proof data of the pipeline on device `c`: the arrays as the region finds them; after the body at point `t` the
    feature window's buffer at `xfill`, the other inputs' at their blocks, the result's at `outO` of those; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => outO (xfill m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outO (xfill m c t) (iblk m c 1 t) (iblk m c 2 t) (iblk m c 3 t) (iblk m c 4 t) := by dsimp only [dats]

/-! ## What the body finds in each buffer -/

/-- The feature window is fetched at every point: its buffer holds the block's rows inside the array over whatever the
    fetch left below them. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl

/-- The four whole-array inputs are fetched once and left in place: their buffers hold their blocks at every point. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- The result window is written back at every point: its buffer is fresh at each. -/
theorem before_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The body at a point -/

/-- What the body is called with at point `t`, the result's buffer at anything; -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- the same with the result's buffer stated through the proof data; -/
def bodyPreV (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- what it returns, as the run of the body gives it: for the rows `d0` the fetch left below the feature block's part
    inside the array, the inputs' buffers as found and the result's at `outO` of them; -/
def bodyRaw (c : Dev nD) (t : Fin cfg0.N) : sProp 𝕄 :=
  iprop(∃ d0 : Vec F S4096x35 .bf16, (dats m 0 c).Φ t.succ ∗ (dats m 0 c).owesAt () t.succ
    ∗ owns (c : Thread nD τ) (st0_0 t) fullShare (win0_0.fill (grid0.coords t) d0 (iblk m c 0 t))
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (outO (win0_0.fill (grid0.coords t) d0 (iblk m c 0 t)) (iblk m c 1 t) (iblk m c 2 t) (iblk m c 3 t) (iblk m c 4 t)))

/-- what the obligation asks, the result's buffer left unsaid; -/
def bodyPostF (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- and with the result's buffer named on its rows inside the array. -/
def bodyPostV (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

/-- The body at any point: the inputs' buffers hold what the `before` lemmas say, so `sound_kernel` applies; the
    invariant and what the core owes pass through unread. -/
theorem sound_body_raw (c : Dev nD) (t : Fin cfg0.N) :
    bodyPreF m c t ⊢ wp frame (wpE (defs₀ (F := F)) Variants.none c none) Set.univ (bodyAt0 t) (fun _ => bodyRaw m c t) := by
  unfold bodyPreF bodyRaw bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (win0_0.fill (grid0.coords t) d0 (iblk m c 0 t)) (iblk m c 1 t) (iblk m c 2 t)
    (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iexists d0
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The rows of the feature block inside the array are the same whatever the fetch left below them. -/
theorem cut_xfill (c : Dev nD) (t : Fin cfg0.N) : win0_0.cut (grid0.coords t) (xfill m c t) = iblk m c 0 t :=
  win0_0.cut_fill _ _ _

/-- From what the run of the body gives to what the obligation asks, the result's buffer left unsaid. -/
theorem raw_postF (c : Dev nD) (t : Fin cfg0.N) : bodyRaw m c t ⊢ bodyPostF m c t := by
  unfold bodyRaw bodyPostF
  rw [after_0, after_1, after_2, after_3, after_4, cut_xfill]
  iintro ⟨%d0, HΦ, Ho, H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists _; iexact H5

/-- The payload's rows inside the array do not depend on what the feature block holds below its rows inside the array. -/
def Local (c : Dev nD) : Prop :=
  ∀ (t : Fin cfg0.N) (d0 : Vec F S4096x35 .bf16),
    win0_5.cut (grid0.coords t) (outO (win0_0.fill (grid0.coords t) d0 (iblk m c 0 t)) (iblk m c 1 t) (iblk m c 2 t) (iblk m c 3 t) (iblk m c 4 t))
      = win0_5.cut (grid0.coords t) (outO (xfill m c t) (iblk m c 1 t) (iblk m c 2 t) (iblk m c 3 t) (iblk m c 4 t))

/-- From what the run of the body gives to what the obligation asks, the result's buffer named: under `Local`, the buffer
    is the named block on the rows inside the array, and itself below them. -/
theorem raw_postV (c : Dev nD) (hloc : Local m c) (t : Fin cfg0.N) : bodyRaw m c t ⊢ bodyPostV m c t := by
  unfold bodyRaw bodyPostV
  rw [after_0, after_1, after_2, after_3, after_4, after_5, cut_xfill]
  iintro ⟨%d0, HΦ, Ho, H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists (outO (win0_0.fill (grid0.coords t) d0 (iblk m c 0 t)) (iblk m c 1 t) (iblk m c 2 t) (iblk m c 3 t) (iblk m c 4 t))
  rw [win0_5.fill_congr_cut (grid0.coords t) (hloc t d0)]
  iexact H5

/-! ## The body obligations -/

/-- The windows the frame says nothing of: the result's. -/
abbrev fgtO : Fin cfg0.W → Bool := fun | 0 => false | 1 => false | 2 => false | 3 => false | 4 => false | 5 => true | ⟨_ + 6, h⟩ => absurd h (Nat.not_lt.2 (Nat.le_add_left _ _))

/-- The obligation with the result window forgotten, at every point. -/
theorem body_obligation_forget (c : Dev nD) :
    BodyObligationLoose (dats (F := F) m 0 c) (defs₀ (F := F)) Variants.none () Set.univ fgtO := fun t => by
  rw [bigSep_W0, bigSep_W0]
  exact (sound_body_raw m c t).trans (wp_mono _ _ _ fun _ => raw_postF m c t)

/-- The obligation with every window named, at every point, under `Local`. -/
theorem body_obligation_valued (c : Dev nD) (hloc : Local m c) :
    BodyObligationLoose (dats (F := F) m 0 c) (defs₀ (F := F)) Variants.none () Set.univ := fun t => by
  rw [bigSep_W0, bigSep_W0]
  have h : bodyPreV m c t ⊢ wp frame (wpE (defs₀ (F := F)) Variants.none c none) Set.univ (bodyAt0 t) (fun _ => bodyPostV m c t) := by
    have e : bodyPreV m c t = bodyPreF m c t := by unfold bodyPreV bodyPreF; simp only [before_5]
    rw [e]
    exact (sound_body_raw m c t).trans (wp_mono _ _ _ fun _ => raw_postV m c hloc t)
  exact h

/-! ## The runs and the frame -/

set_option backward.isDefEq.respectTransparency.types false in
/-- For any values, from any memory with zero counters: every weakly fair execution of @main terminates, and in every
    final state every buffer that is no window's array holds what the region found in it. -/
theorem run_forget : θ_run defs (onTc (τ := τ) (main (F := F))) (s₀ m ρ)
    (Pipeline.RDat.FramePost cfg0 (fun c => (dats m 0 c).toRForget fgtO) (V m)) :=
  Pipeline.RDat.θ_run_frame cfgs (0 : Fin 1) launch0 defs₀ Variants.none (fun c => (dats m 0 c).toRForget fgtO) m ρ main
    (hbody := fun c => (body_obligation_forget m c).toRForget) (hshare := fun c => (dats m 0 c).share_full fun _ => rfl)
    (howed := fun _ _ => rfl) (V := V m) (hmain := hmain m Variants.none) (hA := A_eq m) (hΦ := fun _ _ => rfl)

/-- THE FRAME, at any float instance: the program runs to the end, faults nowhere, and leaves its nine arguments as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m c r.2.mem (h c).2) (run_forget m ρ)

set_option backward.isDefEq.respectTransparency.types false in
/-- The same run with every array of the pipeline named: under `Local` on every device, in every final state each
    window's array holds what the library computes from the proof data — the result array its entry contents
    overwritten, point by point, by the rows inside the array of what the body left. -/
theorem run_valued (hloc : ∀ c, Local m c) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation_valued m c (hloc c)) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.Spec.lean ====
/-
  The function both programs compute, over the extended reals: a two-layer perceptron applied row by row.
  For a matrix `X` of `n` rows and 35 columns, weights `W1` (35 × 512) and `W2` (512 × 512) and biases `b1`, `b2`
  (512 entries each), hidden unit `k` of row `r` is `max (∑ a, X[r,a] · W1[a,k] + b1[k]) 0`, and entry `(r, j)` of the
  result is `∑ k, hidden[r,k] · W2[k,j] + b2[j]`. An entry depends on `X` through row `r` alone: that is what lets a
  block of rows be computed without looking at the other rows (`mlpAt_congr`).
-/
import Idealize.ShloMosaic.PureOps.Ideal
import Idealize.ShloMosaic.Lib.ValueIdx

noncomputable section

open scoped BigOperators

namespace Cert.EdgeMlp

open Idealize.ShloMosaic Idealize.ShloMosaic.ValueIdx

/-- Hidden unit `k` of row `r`: the rectified affine form of the row. -/
def hidden {n : Nat} (X : (⟨2, ![n, 35]⟩ : Shape).Idx → EReal) (W1 : (⟨2, ![35, 512]⟩ : Shape).Idx → EReal)
    (b1 : Fin 512 → EReal) (r : Fin n) (k : Fin 512) : EReal :=
  max ((∑ a : Fin 35, X (ix2 r a) * W1 (ix2 a k)) + b1 k) 0

/-- Entry `(r, j)` of the perceptron's result. -/
def mlpAt {n : Nat} (X : (⟨2, ![n, 35]⟩ : Shape).Idx → EReal) (W1 : (⟨2, ![35, 512]⟩ : Shape).Idx → EReal)
    (b1 : Fin 512 → EReal) (W2 : (⟨2, ![512, 512]⟩ : Shape).Idx → EReal) (b2 : Fin 512 → EReal)
    (r : Fin n) (j : Fin 512) : EReal :=
  (∑ k : Fin 512, hidden X W1 b1 r k * W2 (ix2 k j)) + b2 j

/-- Two matrices that agree on a row (row `r` of the one, row `r'` of the other) give that row the same hidden units, -/
theorem hidden_congr {n n' : Nat} {X : (⟨2, ![n, 35]⟩ : Shape).Idx → EReal} {X' : (⟨2, ![n', 35]⟩ : Shape).Idx → EReal}
    (W1 : (⟨2, ![35, 512]⟩ : Shape).Idx → EReal) (b1 : Fin 512 → EReal) {r : Fin n} {r' : Fin n'}
    (h : ∀ a : Fin 35, X (ix2 r a) = X' (ix2 r' a)) (k : Fin 512) : hidden X W1 b1 r k = hidden X' W1 b1 r' k := by
  unfold hidden
  rw [Finset.sum_congr rfl fun a _ => by rw [h a]]

/-- and so the same entries of the result. -/
theorem mlpAt_congr {n n' : Nat} {X : (⟨2, ![n, 35]⟩ : Shape).Idx → EReal} {X' : (⟨2, ![n', 35]⟩ : Shape).Idx → EReal}
    (W1 : (⟨2, ![35, 512]⟩ : Shape).Idx → EReal) (b1 : Fin 512 → EReal) (W2 : (⟨2, ![512, 512]⟩ : Shape).Idx → EReal)
    (b2 : Fin 512 → EReal) {r : Fin n} {r' : Fin n'} (h : ∀ a : Fin 35, X (ix2 r a) = X' (ix2 r' a)) (j : Fin 512) :
    mlpAt X W1 b1 W2 b2 r j = mlpAt X' W1 b1 W2 b2 r' j := by
  unfold mlpAt
  rw [Finset.sum_congr rfl fun k _ => by rw [hidden_congr W1 b1 h k]]

end Cert.EdgeMlp

end
-- ==== Proof.PayAt.lean ====
/-
  The kernel body's stored value at the ideal instance, read at an index of its 4096 × 512 block: it is the two-layer
  perceptron of the specification applied to the 4096 rows the body loaded. A matrix product into a zero accumulator is
  the plain sum over the contracted axis; a bias row of shape [1, 512] broadcast to [4096, 512] is that row at every
  row; the rectifier is the maximum with 0; the change of float format between the two products is the identity on the
  extended reals.
-/
import proofs.«412488_j67791763800205_3_alg».proof.Proof.Spec
import proofs.«412488_j67791763800205_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.PayValue
open Idealize.ShloMosaic Idealize.ShloMosaic.ValueIdx Cert.KernelIdeal Cert.KernelIdeal.Gen

/-! ## The operand indices of the two products, axis by axis -/

theorem lhs_mm1_0 (i : S4096x512.Idx) (q : dot_S4096x35_S35x512_S4096x512_1_0_0_1_n_n.contr.Idx) :
    (dot_S4096x35_S35x512_S4096x512_1_0_0_1_n_n.lhsIdx i q 0).val = (i 0).val := by
  unfold DotDims.lhsIdx
  rw [dif_neg (show ¬(0 : Fin S4096x35.rank) ∈ dot_S4096x35_S35x512_S4096x512_1_0_0_1_n_n.lhsBatch by decide), dif_pos (show (0 : Fin S4096x35.rank) ∈ dot_S4096x35_S35x512_S4096x512_1_0_0_1_n_n.lhsNonContracting by decide)]
  rfl
theorem lhs_mm1_1 (i : S4096x512.Idx) (q : dot_S4096x35_S35x512_S4096x512_1_0_0_1_n_n.contr.Idx) :
    (dot_S4096x35_S35x512_S4096x512_1_0_0_1_n_n.lhsIdx i q 1).val = (q ⟨0, by decide⟩).val :=
  dot_S4096x35_S35x512_S4096x512_1_0_0_1_n_n.lhsIdx_val_of_single rfl i q
theorem rhs_mm1_0 (i : S4096x512.Idx) (q : dot_S4096x35_S35x512_S4096x512_1_0_0_1_n_n.contr.Idx) :
    (dot_S4096x35_S35x512_S4096x512_1_0_0_1_n_n.rhsIdx i q 0).val = (q ⟨0, by decide⟩).val :=
  dot_S4096x35_S35x512_S4096x512_1_0_0_1_n_n.rhsIdx_val_of_single rfl i q
theorem rhs_mm1_1 (i : S4096x512.Idx) (q : dot_S4096x35_S35x512_S4096x512_1_0_0_1_n_n.contr.Idx) :
    (dot_S4096x35_S35x512_S4096x512_1_0_0_1_n_n.rhsIdx i q 1).val = (i 1).val := by
  unfold DotDims.rhsIdx
  rw [dif_neg (show ¬(1 : Fin S35x512.rank) ∈ dot_S4096x35_S35x512_S4096x512_1_0_0_1_n_n.rhsBatch by decide), dif_pos (show (1 : Fin S35x512.rank) ∈ dot_S4096x35_S35x512_S4096x512_1_0_0_1_n_n.rhsNonContracting by decide)]
  rfl

theorem lhs_mm2_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhs_mm2_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhs_mm2_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhs_mm2_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-! ## Each product read at an index -/

/-- The first product into the zero accumulator, at row `r` and column `k`: the sum over the 35 input features. -/
theorem mm1_apply (x : FVec Ideal S4096x35 .bf16) (w : FVec Ideal S35x512 .bf16) (r : Fin 4096) (k : Fin 512) :
    matmul dot_S4096x35_S35x512_S4096x512_1_0_0_1_n_n none x w (constant (F := Ideal) S4096x512 .f32 0x00000000#32) (ix2 r k)
      = ∑ a : Fin 35, x (ix2 r a) * w (ix2 a k) := by
  simp only [matmul]
  rw [Ideal.matmul_constant_zero_apply, ← Equiv.sum_comp (contrEquiv1 dot_S4096x35_S35x512_S4096x512_1_0_0_1_n_n 35 rfl rfl).symm]
  refine Finset.sum_congr rfl fun a _ => ?_
  have hk := contrEquiv1_symm_val dot_S4096x35_S35x512_S4096x512_1_0_0_1_n_n 35 rfl rfl a
  have el : dot_S4096x35_S35x512_S4096x512_1_0_0_1_n_n.lhsIdx (ix2 r k) ((contrEquiv1 dot_S4096x35_S35x512_S4096x512_1_0_0_1_n_n 35 rfl rfl).symm a) = ix2 r a := funext fun d => Fin.ext (by
    match d with
    | ⟨0, _⟩ => exact lhs_mm1_0 _ _
    | ⟨1, _⟩ => exact (lhs_mm1_1 _ _).trans hk)
  have er : dot_S4096x35_S35x512_S4096x512_1_0_0_1_n_n.rhsIdx (ix2 r k) ((contrEquiv1 dot_S4096x35_S35x512_S4096x512_1_0_0_1_n_n 35 rfl rfl).symm a) = ix2 a k := funext fun d => Fin.ext (by
    match d with
    | ⟨0, _⟩ => exact (rhs_mm1_0 _ _).trans hk
    | ⟨1, _⟩ => exact rhs_mm1_1 _ _)
  rw [el, er]

/-- The second product into the zero accumulator, at row `r` and column `k`: the sum over the 512 hidden units. -/
theorem mm2_apply (x : FVec Ideal S4096x512 .bf16) (w : FVec Ideal S512x512 .bf16) (r : Fin 4096) (k : Fin 512) :
    matmul dot_S4096x512_S512x512_S4096x512_1_0_0_1_n_n none x w (constant (F := Ideal) S4096x512 .f32 0x00000000#32) (ix2 r k)
      = ∑ a : Fin 512, x (ix2 r a) * w (ix2 a k) := by
  simp only [matmul]
  rw [Ideal.matmul_constant_zero_apply, ← Equiv.sum_comp (contrEquiv1 dot_S4096x512_S512x512_S4096x512_1_0_0_1_n_n 512 rfl rfl).symm]
  refine Finset.sum_congr rfl fun a _ => ?_
  have hk := contrEquiv1_symm_val dot_S4096x512_S512x512_S4096x512_1_0_0_1_n_n 512 rfl rfl a
  have el : dot_S4096x512_S512x512_S4096x512_1_0_0_1_n_n.lhsIdx (ix2 r k) ((contrEquiv1 dot_S4096x512_S512x512_S4096x512_1_0_0_1_n_n 512 rfl rfl).symm a) = ix2 r a := funext fun d => Fin.ext (by
    match d with
    | ⟨0, _⟩ => exact lhs_mm2_0 _ _
    | ⟨1, _⟩ => exact (lhs_mm2_1 _ _).trans hk)
  have er : dot_S4096x512_S512x512_S4096x512_1_0_0_1_n_n.rhsIdx (ix2 r k) ((contrEquiv1 dot_S4096x512_S512x512_S4096x512_1_0_0_1_n_n 512 rfl rfl).symm a) = ix2 a k := funext fun d => Fin.ext (by
    match d with
    | ⟨0, _⟩ => exact (rhs_mm2_0 _ _).trans hk
    | ⟨1, _⟩ => exact rhs_mm2_1 _ _)
  rw [el, er]

/-! ## A bias row broadcast down the rows -/

/-- A [1, 512] row broadcast to [4096, 512] reads, at row `r` and column `k`, the row's entry `k`. -/
theorem bcast_row_apply (b : FVec Ideal S1x512 .f32) (h : S1x512.Broadcasts S4096x512) (r : Fin 4096) (k : Fin 512) :
    broadcastTo S4096x512 b h (ix2 r k) = b (ix2 0 k) :=
  broadcastTo_apply b h (ix2 r k) (ix2 0 k) (fun a => match a with
    | ⟨0, _⟩ => by show (0 : Nat) = if (1 : Nat) = 1 then 0 else r.val; rw [if_pos rfl]
    | ⟨1, _⟩ => by show k.val = if (512 : Nat) = 1 then 0 else k.val; rw [if_neg (by decide)])

/-! ## The payload at an index -/

/-- The stored value at row `r` and column `j` of the block is the perceptron's entry `(r, j)` on the loaded rows. -/
theorem pay_apply (x : Vec Ideal S4096x35 .bf16) (w1 : Vec Ideal S35x512 .bf16) (b1 : Vec Ideal S1x512 .f32)
    (w2 : Vec Ideal S512x512 .bf16) (b2 : Vec Ideal S1x512 .f32) (r : Fin 4096) (j : Fin 512) :
    k0_pay1 (F := Ideal) x w1 b1 w2 b2 (ix2 r j)
      = Cert.EdgeMlp.mlpAt x w1 (fun k => b1 (ix2 0 k)) w2 (fun k => b2 (ix2 0 k)) r j := by
  unfold k0_pay1 Cert.EdgeMlp.mlpAt
  simp only [shapeCast_self]
  rw [addf_apply, bcast_row_apply, mm2_apply]
  refine congrArg (· + b2 (ix2 0 j)) (Finset.sum_congr rfl fun k _ => ?_)
  refine congrArg (· * w2 (ix2 k j)) ?_
  unfold Cert.EdgeMlp.hidden
  rw [truncf_apply, maximumf_apply, addf_apply, broadcast_apply, bcast_row_apply, mm1_apply]
  show max _ (Ideal.ofBits .f32 0x00000000#32) = _
  rw [Ideal.ofBits_zero_f32]

end Cert.KernelIdeal.PayValue

end
-- ==== Proof.KIBlocks.lean ====
/-
  The blocks at the ideal instance.
  The result block the body leaves is its payload (the one store covers the buffer), so at an index it is the perceptron
  of the loaded blocks (`outO_apply`). The two weight matrices and the two bias rows are windows of one block, the
  whole array: their blocks are the arrays (`iblk_1` … `iblk_4`). The feature window's block at point `t` is rows
  `t·4096 …` of the feature matrix, cut at the matrix's end; a buffer holding that block over any other contents
  holds, on a row inside the array, the matrix's row (`fill_apply`). Since an entry of the perceptron's result reads
  one row of its first argument, the rows of the result block inside the array do not depend on what the buffer held
  below the block (`local_ideal`).
-/
import proofs.«412488_j67791763800205_3_alg».proof.Proof.KIFrame
import proofs.«412488_j67791763800205_3_alg».proof.Proof.PayAt
import proofs.«412488_j67791763800205_3_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand Cert.EdgeMlp
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-! ## The result block -/

/-- The result's buffer after the body is the payload of the five loaded blocks. -/
theorem outO_eq (x0 : Vec Ideal S4096x35 .bf16) (x1 : Vec Ideal S35x512 .bf16) (x2 : Vec Ideal S1x512 .f32) (x3 : Vec Ideal S512x512 .bf16)
    (x4 : Vec Ideal S1x512 .f32) : outO (F := Ideal) x0 x1 x2 x3 x4 = k0_pay1 x0 x1 x2 x3 x4 := by
  unfold outO
  rw [View.canon_unit_zero hz]
  simp only [View.ld_unit_zero (S := S4096x35) hz, View.ld_unit_zero (S := S35x512) hz, View.ld_unit_zero (S := S1x512) hz,
    View.ld_unit_zero (S := S512x512) hz]

/-- At an index it is the perceptron of the blocks. -/
theorem outO_apply (x0 : Vec Ideal S4096x35 .bf16) (x1 : Vec Ideal S35x512 .bf16) (x2 : Vec Ideal S1x512 .f32) (x3 : Vec Ideal S512x512 .bf16)
    (x4 : Vec Ideal S1x512 .f32) (r : Fin 4096) (j : Fin 512) :
    outO (F := Ideal) x0 x1 x2 x3 x4 (ix2 r j) = mlpAt x0 x1 (fun k => x2 (ix2 0 k)) x3 (fun k => x4 (ix2 0 k)) r j := by
  rw [outO_eq]; exact Cert.KernelIdeal.PayValue.pay_apply x0 x1 x2 x3 x4 r j

/-! ## The windows over the grid -/

/-- The printed index maps and cuts, decided over the grid's 123 points: the feature window and the result window
    move together down the rows, both cut alike at the arrays' end, and span all their columns; the four other windows
    stay at block 0. -/
theorem grid_facts : ∀ t : Fin cfg0.N, win0_0.index t (0 : Fin 2) = win0_5.index t (0 : Fin 2)
    ∧ win0_0.index t (1 : Fin 2) = 0
    ∧ win0_0.xsize (grid0.coords t) (0 : Fin 2) = win0_5.xsize (grid0.coords t) (0 : Fin 2)
    ∧ win0_0.xsize (grid0.coords t) (1 : Fin 2) = 35
    ∧ win0_5.index t (1 : Fin 2) = 0
    ∧ win0_5.xsize (grid0.coords t) (1 : Fin 2) = 512
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The whole-array inputs: the block is the array -/

theorem iblk_1 (c : Dev nD) (t : Fin cfg0.N) : (iblk m c 1 t : Vec Ideal S35x512 .bf16) = (V m c main_v9 : Vec Ideal S35x512 .bf16) := by
  obtain ⟨-, -, -, -, -, -, e0, e1, -⟩ := grid_facts t
  funext y
  show V m c main_v9 (((cfg0.win 1).blk t).view.emb y) = V m c main_v9 y
  refine congrArg _ (funext fun a => Fin.ext ?_)
  match a with
  | ⟨0, _⟩ => show win0_1.index t (0 : Fin 2) * 35 + 1 * (y 0).val = (y 0).val; omega
  | ⟨1, _⟩ => show win0_1.index t (1 : Fin 2) * 512 + 1 * (y 1).val = (y 1).val; omega

theorem iblk_2 (c : Dev nD) (t : Fin cfg0.N) : (iblk m c 2 t : Vec Ideal S1x512 .f32) = (V m c main_v11 : Vec Ideal S1x512 .f32) := by
  obtain ⟨-, -, -, -, -, -, -, -, e0, e1, -⟩ := grid_facts t
  funext y
  show V m c main_v11 (((cfg0.win 2).blk t).view.emb y) = V m c main_v11 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem iblk_3 (c : Dev nD) (t : Fin cfg0.N) : (iblk m c 3 t : Vec Ideal S512x512 .bf16) = (V m c main_v10 : Vec Ideal S512x512 .bf16) := by
  obtain ⟨-, -, -, -, -, -, -, -, -, -, e0, e1, -⟩ := grid_facts t
  funext y
  show V m c main_v10 (((cfg0.win 3).blk t).view.emb y) = V m c main_v10 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem iblk_4 (c : Dev nD) (t : Fin cfg0.N) : (iblk m c 4 t : Vec Ideal S1x512 .f32) = (V m c main_v12 : Vec Ideal S1x512 .f32) := by
  obtain ⟨-, -, -, -, -, -, -, -, -, -, -, -, e0, e1⟩ := grid_facts t
  funext y
  show V m c main_v12 (((cfg0.win 4).blk t).view.emb y) = V m c main_v12 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-! ## The feature block -/

/-- A buffer holding the feature block at point `t` over contents `d` holds, at row `r` inside the array and column `a`,
    the feature matrix at row `t·4096 + r`: whatever `d` is. -/
theorem fill_apply (c : Dev nD) (t : Fin cfg0.N) (d : Vec Ideal S4096x35 .bf16) (r : Fin 4096) (a : Fin 35)
    (hr : r.val < win0_5.xsize (grid0.coords t) (0 : Fin 2)) (row : Fin 500000) (hrow : row.val = win0_5.index t (0 : Fin 2) * 4096 + r.val) :
    win0_0.fill (grid0.coords t) d (iblk m c 0 t) (ix2 r a) = (V m c main_v8 : Vec Ideal S500000x35 .bf16) (ix2 row a) := by
  obtain ⟨e0, e1, e2, e3, -⟩ := grid_facts t
  have hm : win0_0.moved (grid0.coords t) (ix2 r a) = true := (win0_0.moved_iff _ _).mpr fun ax => by
    match ax with
    | ⟨0, _⟩ => show r.val < win0_0.xsize (grid0.coords t) (0 : Fin 2); omega
    | ⟨1, _⟩ => show a.val < win0_0.xsize (grid0.coords t) (1 : Fin 2); have := a.isLt; omega
  unfold Window.fill
  rw [dif_pos hm]
  show V m c main_v8 (((cfg0.win 0).blk t).view.emb _) = V m c main_v8 (ix2 row a)
  refine congrArg _ (funext fun ax => Fin.ext ?_)
  match ax with
  | ⟨0, _⟩ => show win0_0.index t (0 : Fin 2) * 4096 + 1 * r.val = row.val; omega
  | ⟨1, _⟩ => show win0_0.index t (1 : Fin 2) * 35 + 1 * a.val = a.val; omega

/-! ## Row-locality -/

/-- The rows of the result block inside the array are the same whatever the feature buffer held below the block. -/
theorem local_ideal (c : Dev nD) : Local (F := Ideal) m c := by
  intro t d0
  obtain ⟨-, -, -, -, e4, e5, -⟩ := grid_facts t
  funext j
  have hr : (j 0).val < win0_5.xsize (grid0.coords t) (0 : Fin 2) := (j 0).isLt
  have hq : (j 1).val < 512 := lt_of_lt_of_eq (j 1).isLt e5
  have hr' : (j 0).val < 4096 := lt_of_lt_of_le hr (win0_5.xsize_le (grid0.coords t) (0 : Fin 2))
  have hx : win0_5.xinj (grid0.coords t) j = ix2 (⟨(j 0).val, hr'⟩ : Fin 4096) (⟨(j 1).val, hq⟩ : Fin 512) :=
    funext fun ax => Fin.ext (by match ax with | ⟨0, _⟩ => rfl | ⟨1, _⟩ => rfl)
  show outO _ _ _ _ _ (win0_5.xinj (grid0.coords t) j) = outO _ _ _ _ _ (win0_5.xinj (grid0.coords t) j)
  rw [hx, outO_apply, outO_apply]
  have hrow : win0_5.index t (0 : Fin 2) * 4096 + (j 0).val < 500000 := by
    have := Pipeline.Clip.inb (win0_5.hclip (grid0.coords t) (0 : Fin 2))
    have h2 : win0_5.index t (0 : Fin 2) * 4096 + win0_5.xsize (grid0.coords t) (0 : Fin 2) ≤ 500000 := this
    omega
  refine mlpAt_congr _ _ _ _ (r := ⟨(j 0).val, hr'⟩) (r' := ⟨(j 0).val, hr'⟩) (fun a => ?_) _
  rw [fill_apply m c t d0 ⟨(j 0).val, hr'⟩ a hr ⟨_, hrow⟩ rfl]
  unfold xfill
  rw [fill_apply m c t _ ⟨(j 0).val, hr'⟩ a hr ⟨_, hrow⟩ rfl]

end Cert.KernelIdeal.HandValue

end
-- ==== Proof.KICover.lean ====
/-
  The result window's blocks, each cut at the array's end, together cover the whole 500000 × 512 result array. The grid
  has 123 points; the block of point `t` starts at row `t · 4096` and column 0, spans all 512 columns, and has 4096 rows
  inside the array except the last (`t = 122`), which has 288, since 500000 = 122 · 4096 + 288. So row `r` lies in the
  block of point `r / 4096`, and every point writes its block back.
-/
import proofs.«412488_j67791763800205_3_alg».proof.Proof.KIFrame
import Idealize.ShloMosaic.Lib.Pipeline.Value

noncomputable section

namespace Cert.KernelIdeal.Cover
open Cert.KernelIdeal Cert.KernelIdeal.Gen Idealize.ShloMosaic Idealize.ShloMosaic.TcCoe Idealize.SL.Sem

/-- The printed index map and cuts of the result window, decided over the grid's 123 points: block t starts at row t·4096 and column 0, spans every column, and ends at row min (t·4096 + 4096) 500000. -/
theorem grid_facts5 : ∀ t : Fin cfg0.N, win0_5.index t (0 : Fin 2) = t.val ∧ win0_5.index t (1 : Fin 2) = 0
    ∧ win0_5.xsize (grid0.coords t) (1 : Fin 2) = 512
    ∧ t.val * 4096 + win0_5.xsize (grid0.coords t) (0 : Fin 2) = min (t.val * 4096 + 4096) 500000 :=
  (by decide +kernel : ∀ t : Fin grid0.N, _)

/-- An index of the result array is in point t's block iff each coordinate is in the block's range on its axis, the range cut at the array's end. -/
theorem mem_blk5 (t : Fin cfg0.N) (i : S500000x512.Idx) :
    i ∈ ((cfg0.win 5).blk t).view.set ↔ ∀ a : Fin 2, win0_5.index t a * S4096x512.size a ≤ (i a).val ∧ (i a).val < win0_5.index t a * S4096x512.size a + win0_5.xsize (grid0.coords t) a := by
  show i ∈ ((View.whole main_v13).slice (win0_5.rect t)).set ↔ _
  rw [View.set_slice_whole, Rect.mem_set_unit]
  exact Iff.rfl

/-- Row `r` of the array lies among the rows from `r / 4096 · 4096` up to, and not including, the smaller of that plus 4096 and the array's end. -/
theorem row_in_block (r x : Nat) (hr : r < 500000)
    (hx : r / 4096 * 4096 + x = min (r / 4096 * 4096 + 4096) 500000) :
    r / 4096 * 4096 ≤ r ∧ r < r / 4096 * 4096 + x := by
  omega

/-- Every index of the result array is in the block of some point, and every point writes its block back. -/
theorem cover5 (i : S500000x512.Idx) : ∃ t : Fin cfg0.N, (cfg0.win 5).flush t = true ∧ i ∈ ((cfg0.win 5).blk t).view.set := by
  have hi0 : (i 0).val < 500000 := (i 0).isLt
  have hi1 : (i 1).val < 512 := (i 1).isLt
  have hN : cfg0.N = 123 := N_0
  have hq : (i 0).val / 4096 < cfg0.N := by rw [hN]; omega
  obtain ⟨e0, e1, e2, e3⟩ := grid_facts5 ⟨(i 0).val / 4096, hq⟩
  refine ⟨⟨(i 0).val / 4096, hq⟩, flush0_5 _, ?_⟩
  rw [mem_blk5]
  intro a
  match a with
  | ⟨0, _⟩ =>
    show win0_5.index ⟨(i 0).val / 4096, hq⟩ (0 : Fin 2) * 4096 ≤ (i 0).val
      ∧ (i 0).val < win0_5.index ⟨(i 0).val / 4096, hq⟩ (0 : Fin 2) * 4096
          + win0_5.xsize (grid0.coords ⟨(i 0).val / 4096, hq⟩) (0 : Fin 2)
    have e0' : win0_5.index ⟨(i 0).val / 4096, hq⟩ (0 : Fin 2) = (i 0).val / 4096 := e0
    rw [e0']
    have e3' : (i 0).val / 4096 * 4096 + win0_5.xsize (grid0.coords ⟨(i 0).val / 4096, hq⟩) (0 : Fin 2)
        = min ((i 0).val / 4096 * 4096 + 4096) 500000 := e3
    exact row_in_block (i 0).val _ hi0 e3'
  | ⟨1, _⟩ =>
    show win0_5.index ⟨(i 0).val / 4096, hq⟩ (1 : Fin 2) * 512 ≤ (i 1).val
      ∧ (i 1).val < win0_5.index ⟨(i 0).val / 4096, hq⟩ (1 : Fin 2) * 512
          + win0_5.xsize (grid0.coords ⟨(i 0).val / 4096, hq⟩) (1 : Fin 2)
    rw [e1, e2]
    omega

end Cert.KernelIdeal.Cover

end
-- ==== Proof.KIArray.lean ====
/-
  From the blocks to the result array, at the ideal instance.
  `resK` is the perceptron of the specification applied to the arrays the region finds: the feature matrix, the two
  weight matrices, the two bias rows. What point `t` writes back — the rows inside the array of the block the body
  left — is block `t` of `resK` (`flushed_eq`): row `r` of the block is the perceptron of row `r` of the feature block,
  which is row `t·4096 + r` of the feature matrix. The blocks cover the array, so the array ends holding `resK`
  (`final_result`), and the program's run is restated with its result named (`run_value`).
-/
import proofs.«412488_j67791763800205_3_alg».proof.Proof.KIBlocks
import proofs.«412488_j67791763800205_3_alg».proof.Proof.KICover

set_option maxRecDepth 16384

noncomputable section

namespace Cert.KernelIdeal.HandValue

open Cert.KernelIdeal Cert.KernelIdeal.Gen Cert.KernelIdeal.Hand Cert.EdgeMlp
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The result array as one function of the arrays the region finds. -/
def resK (c : Dev nD) : S500000x512.Idx → EReal := fun i =>
  mlpAt (n := 500000) (V m c main_v8 : Vec Ideal S500000x35 .bf16) (V m c main_v9 : Vec Ideal S35x512 .bf16)
    (fun k => (V m c main_v11 : Vec Ideal S1x512 .f32) (ix2 0 k)) (V m c main_v10 : Vec Ideal S512x512 .bf16)
    (fun k => (V m c main_v12 : Vec Ideal S1x512 .f32) (ix2 0 k)) (i 0) (i 1)

/-- What point `t` writes back is block `t` of `resK`. -/
theorem flushed_eq (c : Dev nD) (t : Fin cfg0.N) :
    (dats m 0 c).flushed 5 t = ((cfg0.win 5).blk t).view.read (Elt Ideal) (resK m c) := by
  show (cfg0.win 5).cut (grid0.coords t) ((dats m 0 c).after 5 t) = _
  rw [after_5]
  obtain ⟨-, -, -, -, e4, e5, -⟩ := grid_facts t
  funext j
  have hr : (j 0).val < win0_5.xsize (grid0.coords t) (0 : Fin 2) := (j 0).isLt
  have hq : (j 1).val < 512 := lt_of_lt_of_eq (j 1).isLt e5
  have hr' : (j 0).val < 4096 := lt_of_lt_of_le hr (win0_5.xsize_le (grid0.coords t) (0 : Fin 2))
  have hx : win0_5.xinj (grid0.coords t) j = ix2 (⟨(j 0).val, hr'⟩ : Fin 4096) (⟨(j 1).val, hq⟩ : Fin 512) :=
    funext fun ax => Fin.ext (by match ax with | ⟨0, _⟩ => rfl | ⟨1, _⟩ => rfl)
  have hrow : win0_5.index t (0 : Fin 2) * 4096 + (j 0).val < 500000 := by
    have h2 : win0_5.index t (0 : Fin 2) * 4096 + win0_5.xsize (grid0.coords t) (0 : Fin 2) ≤ 500000 :=
      Pipeline.Clip.inb (win0_5.hclip (grid0.coords t) (0 : Fin 2))
    omega
  -- the index of the array under block index `j`: row `t·4096 + j 0`, column `j 1`
  have hemb : ((cfg0.win 5).blk t).view.emb j
      = ix2 (⟨win0_5.index t (0 : Fin 2) * 4096 + (j 0).val, hrow⟩ : Fin 500000) (⟨(j 1).val, hq⟩ : Fin 512) :=
    funext fun ax => Fin.ext (by
      match ax with
      | ⟨0, _⟩ => show win0_5.index t (0 : Fin 2) * 4096 + 1 * (j 0).val = win0_5.index t (0 : Fin 2) * 4096 + (j 0).val; omega
      | ⟨1, _⟩ => show win0_5.index t (1 : Fin 2) * 512 + 1 * (j 1).val = (j 1).val; omega)
  show outO (F := Ideal) _ _ _ _ _ (win0_5.xinj (grid0.coords t) j) = resK m c (((cfg0.win 5).blk t).view.emb j)
  rw [hx, hemb, outO_apply, iblk_1, iblk_2, iblk_3, iblk_4]
  unfold resK
  refine mlpAt_congr _ _ _ _ (fun a => ?_) _
  unfold xfill
  exact fill_apply m c t _ ⟨(j 0).val, hr'⟩ a hr ⟨_, hrow⟩ rfl

/-- The result array after the run. -/
theorem final_result (c : Dev nD) : (dats m 0 c).arrAt 5 cfg0.N = resK m c :=
  (dats m 0 c).arrAt_eq_of_cover 5 (resK m c) (fun t _ => flushed_eq m c t) Cert.KernelIdeal.Cover.cover5

/-- The program's run with its result named: every weakly fair execution terminates with the result array at `resK`
    and the nine arguments as launched. -/
theorem run_value : θ_run defs (onTc (τ := τ) (main (F := Ideal))) ⟨m, fun _ => 0, ρ⟩ (fun r => ∀ c : Dev nD,
      r.2.mem ((c.tc : Thread nD τ).loc main_v13) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 5).trans (final_result m c), args_kept m c r.2.mem (h c).2⟩)
    (run_valued m ρ (local_ideal m))

end Cert.KernelIdeal.HandValue

end
-- ==== Proof.KIHost.lean ====
/-
  What the kernel region finds in the five arrays its windows read, in terms of the program's arguments.
  The fifteen host operations before the region compute them: the 35-column feature matrix is the concatenation of
  the source features, the destination features, the edge attribute and the gathered per-graph rows, narrowed to
  bf16; the two weight matrices are the arguments narrowed to bf16; the two biases are the arguments reshaped from
  512 entries to one row of 512. Each array is read off the list of operations. At the ideal values a change of
  float format is the identity and a reshape keeps the row-major position, so each array read at an index is the
  argument (or the concatenation) read at the corresponding index.
-/
import proofs.«412488_j67791763800205_3_alg».proof.Proof.KIKit
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.HostValue

open Cert.KernelIdeal Cert.KernelIdeal.Gen Cert.KernelIdeal.Hand Idealize.ShloMosaic Idealize.ShloMosaic.TcCoe Idealize.SL.Sem Idealize.ShloMosaic.StableHlo Idealize.ShloMosaic.ValueIdx

section Generic

variable {F : FTy → Type} [FloatOps F]

/-- The 35-column feature matrix as the host operations build it from the first five arguments: source features, destination features, the edge attribute, and the row of per-graph features the (sign-normalised) graph index selects. -/
def featK (x0 x1 : (⟨S500000x9, .f32⟩ : BufTy).Contents (Elt F)) (x2 : (⟨S500000x1, .f32⟩ : BufTy).Contents (Elt F)) (x3 : (⟨S1024x16, .f32⟩ : BufTy).Contents (Elt F)) (x4 : (⟨S500000, .i32⟩ : BufTy).Contents (Elt F)) : (⟨S500000x35, .f32⟩ : BufTy).Contents (Elt F) :=
  concatenate S500000x35 1 [⟨S500000x9, x0⟩, ⟨S500000x9, x1⟩, ⟨S500000x1, x2⟩, ⟨S500000x16, Host.gather gather_S1024x16_S500000x1_S500000x16_1_0_n_n_0_1_116 x3 (broadcastInDim S500000x1 ![0] bcast_S500000_S500000x1_0 (select (cmpi .slt x4 (broadcastInDim S500000 ![] bcast_S_S500000 (constantI S_ 32 0#32))) (addi x4 (broadcastInDim S500000 ![] bcast_S_S500000 (constantI S_ 32 1024#32))) x4))⟩] concatenates_S500000x9_S500000x9_S500000x1_S500000x16_S500000x35_d1

variable (m : (ℓ : Loc nD τ sig) → Buf (Elt F) ℓ)

/-- The first window's array is the feature matrix narrowed to bf16. -/
theorem V_main_v8 (c : Dev nD) : V m c main_v8 = truncf .bf16 (featK (m ((c : Thread nD τ).loc main_arg0)) (m ((c : Thread nD τ).loc main_arg1)) (m ((c : Thread nD τ).loc main_arg2)) (m ((c : Thread nD τ).loc main_arg3)) (m ((c : Thread nD τ).loc main_arg4))) bitsLt_bf16_f32 := by
  dsimp only [V, hostOps0]
  after_results
  rfl

/-- The second window's array is the first weight matrix narrowed to bf16. -/
theorem V_main_v9 (c : Dev nD) : V m c main_v9 = truncf .bf16 (m ((c : Thread nD τ).loc main_arg5)) bitsLt_bf16_f32 := by
  dsimp only [V, hostOps0]
  after_results

/-- The fourth window's array is the second weight matrix narrowed to bf16. -/
theorem V_main_v10 (c : Dev nD) : V m c main_v10 = truncf .bf16 (m ((c : Thread nD τ).loc main_arg7)) bitsLt_bf16_f32 := by
  dsimp only [V, hostOps0]
  after_results

/-- The third window's array is the first bias as one row of 512. -/
theorem V_main_v11 (c : Dev nD) : V m c main_v11 = shapeCast S1x512 (m ((c : Thread nD τ).loc main_arg6)) shapeCasts_S512_S1x512 := by
  dsimp only [V, hostOps0]
  after_results
  rfl

/-- The fifth window's array is the second bias as one row of 512. -/
theorem V_main_v12 (c : Dev nD) : V m c main_v12 = shapeCast S1x512 (m ((c : Thread nD τ).loc main_arg8)) shapeCasts_S512_S1x512 := by
  dsimp only [V, hostOps0]
  after_results
  rfl

end Generic

section AtIdeal

variable (m : (ℓ : Loc nD τ sig) → Buf (Elt Ideal) ℓ)

/-- At the ideal values the feature window's array, read at an index, is the concatenation read there. -/
theorem V8_apply (c : Dev nD) (i : S500000x35.Idx) : V m c main_v8 i = featK (m ((c : Thread nD τ).loc main_arg0)) (m ((c : Thread nD τ).loc main_arg1)) (m ((c : Thread nD τ).loc main_arg2)) (m ((c : Thread nD τ).loc main_arg3)) (m ((c : Thread nD τ).loc main_arg4)) i := by
  rw [V_main_v8]
  rfl

/-- At the ideal values the first weight window's array, read at an index, is the argument read there. -/
theorem V9_apply (c : Dev nD) (i : S35x512.Idx) : V m c main_v9 i = m ((c : Thread nD τ).loc main_arg5) i := by
  rw [V_main_v9]
  rfl

/-- At the ideal values the second weight window's array, read at an index, is the argument read there. -/
theorem V10_apply (c : Dev nD) (i : S512x512.Idx) : V m c main_v10 i = m ((c : Thread nD τ).loc main_arg7) i := by
  rw [V_main_v10]
  rfl

/-- Entry `k` of the one row of the first bias window's array is entry `k` of the first bias. -/
theorem V11_apply (c : Dev nD) (k : Fin 512) : V m c main_v11 (ix2 0 k) = m ((c : Thread nD τ).loc main_arg6) (ix1 k) := by
  rw [V_main_v11]
  refine shapeCast_apply _ _ _ (ix1 k) ?_
  rw [Shape.rowMajor_val_one, Shape.rowMajor_val_two]
  show k.val = 0 * 512 + k.val
  omega

/-- Entry `k` of the one row of the second bias window's array is entry `k` of the second bias. -/
theorem V12_apply (c : Dev nD) (k : Fin 512) : V m c main_v12 (ix2 0 k) = m ((c : Thread nD τ).loc main_arg8) (ix1 k) := by
  rw [V_main_v12]
  refine shapeCast_apply _ _ _ (ix1 k) ?_
  rw [Shape.rowMajor_val_one, Shape.rowMajor_val_two]
  show k.val = 0 * 512 + k.val
  omega

end AtIdeal

end Cert.KernelIdeal.HostValue

end
-- ==== Proof.RefIsMlp.lean ====
/-
  The reference program's result, read at an index at the ideal instance, is the two-layer perceptron of the
  specification applied to the concatenated feature matrix: entry `(r, j)` is
  `∑ k, max (∑ a, X[r,a] · W1[a,k] + b1[k]) 0 · W2[k,j] + b2[j]`, where `X` is the concatenation of the three feature
  arrays and the gathered table rows, `W1`, `W2` are the two weight matrices and `b1`, `b2` the two bias vectors.
  The feature matrix stays folded: only the operations after it are read.
-/
import proofs.«412488_j67791763800205_3_alg».proof.Proof.Spec
import proofs.«412488_j67791763800205_3_alg».proof.Proof.Gen.ReferenceIdeal.Read

noncomputable section

open scoped BigOperators

namespace Cert.ReferenceIdeal.RefValue
open Idealize.ShloMosaic Idealize.ShloMosaic.ValueIdx Cert.ReferenceIdeal Cert.ReferenceIdeal.Read

/-- Entry `(r, j)` of the reference's result is the perceptron's entry `(r, j)` on the concatenated features. -/
theorem ref_eq_mlp (x0 x1 : (⟨S500000x9, .f32⟩ : BufTy).Contents (Elt Ideal)) (x2 : (⟨S500000x1, .f32⟩ : BufTy).Contents (Elt Ideal))
    (x3 : (⟨S1024x16, .f32⟩ : BufTy).Contents (Elt Ideal)) (x4 : (⟨S500000, .i32⟩ : BufTy).Contents (Elt Ideal))
    (x5 : (⟨S35x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (r : Fin 500000) (j : Fin 512) :
    val_main_v16 (F := Ideal) x0 x1 x2 x3 x4 x5 x6 x7 x8 (ix2 r j)
      = Cert.EdgeMlp.mlpAt (val_main_v7 (F := Ideal) x0 x1 x2 x3 x4) x5 (fun k => x6 (ix1 k)) x7 (fun k => x8 (ix1 k)) r j := by
  unfold Cert.EdgeMlp.mlpAt Cert.EdgeMlp.hidden
  -- the index functions of the two contractions and of the bias broadcasts, at an index given by coordinates
  have eL13 : ∀ k : Fin 512, lidx_main_v13 (ix2 r j) k = ix2 r k := fun k =>
    funext fun a => Fin.ext (by match a with | ⟨0, _⟩ => rfl | ⟨1, _⟩ => rfl)
  have eR13 : ∀ k : Fin 512, ridx_main_v13 (ix2 r j) k = ix2 k j := fun k =>
    funext fun a => Fin.ext (by match a with | ⟨0, _⟩ => rfl | ⟨1, _⟩ => rfl)
  have eL8 : ∀ (k : Fin 512) (a : Fin 35), lidx_main_v8 (ix2 r k) a = ix2 r a := fun k a =>
    funext fun d => Fin.ext (by match d with | ⟨0, _⟩ => rfl | ⟨1, _⟩ => rfl)
  have eR8 : ∀ (k : Fin 512) (a : Fin 35), ridx_main_v8 (ix2 r k) a = ix2 a k := fun k a =>
    funext fun d => Fin.ext (by match d with | ⟨0, _⟩ => rfl | ⟨1, _⟩ => rfl)
  have eB1 : ∀ k : Fin 512, idx_main_v9 (idx_main_v10 (ix2 r k)) = ix1 k := fun k =>
    funext fun d => Fin.ext (by match d with | ⟨0, _⟩ => rfl)
  have eB2 : idx_main_v14 (idx_main_v15 (ix2 r j)) = ix1 j :=
    funext fun d => Fin.ext (by match d with | ⟨0, _⟩ => rfl)
  -- the hidden layer at `(r, k)`: the rectified affine form of row `r`
  have h12 : ∀ k : Fin 512, val_main_v12 (F := Ideal) x0 x1 x2 x3 x4 x5 x6 (ix2 r k)
      = max ((∑ a : Fin 35, val_main_v7 (F := Ideal) x0 x1 x2 x3 x4 (ix2 r a) * x5 (ix2 a k)) + x6 (ix1 k)) 0 := by
    intro k
    rw [val_main_v12_apply, val_main_v11_apply, val_main_v8_apply, val_main_v10_apply, val_main_v9_apply,
      val_main_call0_v0_apply, val_main_call0_cst_apply, eB1 k,
      Finset.sum_congr rfl fun a _ => by rw [eL8 k a, eR8 k a]]
    simp only [Ideal.addf_def, Ideal.maximumf_def, Ideal.ofBits_def, Ideal.ofBits_zero_f32]
  -- the second layer: the contraction over the hidden units plus the bias
  rw [val_main_v16_apply, val_main_v13_apply, val_main_v15_apply, val_main_v14_apply, eB2,
    Finset.sum_congr rfl fun k _ => by rw [eL13 k, eR13 k, h12 k]]
  simp only [Ideal.addf_def]

end Cert.ReferenceIdeal.RefValue

end
-- ==== Proof.lean ====
/-
  The kernel computes, per edge, a two-layer perceptron of the 35 features of the edge — nine of its source node, nine
  of its destination node, its own attribute, and the sixteen of its graph, gathered by the edge's graph index — and
  so does the reference. Both programs build the same 500000 × 35 feature matrix by the same host operations; the
  reference then applies the two affine layers and the rectifier to the whole matrix, while the kernel walks the matrix
  in 123 blocks of 4096 rows (the last cut to the 288 rows left), changing the float format of the matrix and the
  weights before and of the hidden layer between the two products. Over the extended reals a change of format is the
  identity and a matrix product into a zero accumulator is the plain sum, so each row of each block is the reference's
  row: the two results are one function of the arguments, entry by entry (`result_eq`). No law of arithmetic beyond
  that is used, and the inputs' finiteness is not needed.
  The three frames: the two kernel programs run to the end, fault nowhere and leave the arguments as launched because
  the body only loads its input blocks and stores its result block, whatever lies below the last block's rows; the
  reference is a straight line of host operations.
-/
import proofs.«412488_j67791763800205_3_alg».proof.Defs
import proofs.«412488_j67791763800205_3_alg».proof.Proof.Gen.Kernel
import proofs.«412488_j67791763800205_3_alg».proof.Proof.Gen.Kernel.Skeleton
import proofs.«412488_j67791763800205_3_alg».proof.Proof.Gen.Kernel.Launch
import proofs.«412488_j67791763800205_3_alg».proof.Proof.Gen.Kernel.Points
import proofs.«412488_j67791763800205_3_alg».proof.Proof.Gen.KernelIdeal
import proofs.«412488_j67791763800205_3_alg».proof.Proof.Gen.KernelIdeal.Skeleton
import proofs.«412488_j67791763800205_3_alg».proof.Proof.Gen.KernelIdeal.Launch
import proofs.«412488_j67791763800205_3_alg».proof.Proof.Gen.KernelIdeal.Points
import proofs.«412488_j67791763800205_3_alg».proof.Proof.Gen.ReferenceIdeal
import proofs.«412488_j67791763800205_3_alg».proof.Proof.Gen.Pre_finite_inputs
import proofs.«412488_j67791763800205_3_alg».proof.Proof.Gen.ReferenceIdeal.Run
import proofs.«412488_j67791763800205_3_alg».proof.Proof.Gen.ReferenceIdeal.Read
import proofs.«412488_j67791763800205_3_alg».proof.Proof.KFrame
import proofs.«412488_j67791763800205_3_alg».proof.Proof.KIArray
import proofs.«412488_j67791763800205_3_alg».proof.Proof.KIHost
import proofs.«412488_j67791763800205_3_alg».proof.Proof.RefIsMlp
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames and the idealization -/

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-! ## The two results are one function of the arguments -/

section

open Cert.KernelIdeal Cert.KernelIdeal.Hand Cert.KernelIdeal.HandValue Cert.KernelIdeal.HostValue

/-- The two programs build the feature matrix by the same operations of the same five arguments. -/
theorem feat_eq (x0 x1 : (⟨S500000x9, .f32⟩ : BufTy).Contents (Elt Ideal)) (x2 : (⟨S500000x1, .f32⟩ : BufTy).Contents (Elt Ideal))
    (x3 : (⟨S1024x16, .f32⟩ : BufTy).Contents (Elt Ideal)) (x4 : (⟨S500000, .i32⟩ : BufTy).Contents (Elt Ideal)) :
    featK (F := Ideal) x0 x1 x2 x3 x4 = Cert.ReferenceIdeal.Read.val_main_v7 (F := Ideal) x0 x1 x2 x3 x4 := rfl

/-- The reference's result, as a function of the arguments, is what the kernel's result array ends holding: both are the
    perceptron of the feature matrix, the weights and the biases; the kernel reads them through changes of format, which
    are the identity, and the biases through a reshape to one row. -/
theorem result_eq (m : (ℓ : Loc nD τ sig) → Buf (Elt Ideal) ℓ) (c : Dev nD) :
    Cert.ReferenceIdeal.Read.val_main_v16 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = resK m c := by
  funext i
  obtain ⟨r, j, rfl⟩ : ∃ (r : Fin 500000) (j : Fin 512), i = ix2 r j := ⟨i 0, i 1, eq_ix2 i⟩
  rw [Cert.ReferenceIdeal.RefValue.ref_eq_mlp]
  unfold resK
  have h8 : (V m c main_v8 : Vec Ideal S500000x35 .bf16) = Cert.ReferenceIdeal.Read.val_main_v7 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) :=
    funext fun y => (V8_apply m c y).trans (congrFun (feat_eq _ _ _ _ _) y)
  have h9 : (V m c main_v9 : Vec Ideal S35x512 .bf16) = m ((c : Thread nD τ).loc main_arg5) := funext (V9_apply m c)
  have h10 : (V m c main_v10 : Vec Ideal S512x512 .bf16) = m ((c : Thread nD τ).loc main_arg7) := funext (V10_apply m c)
  have h11 : (fun k : Fin 512 => (V m c main_v11 : Vec Ideal S1x512 .f32) (ix2 0 k)) = fun k => m ((c : Thread nD τ).loc main_arg6) (ix1 k) :=
    funext (V11_apply m c)
  have h12 : (fun k : Fin 512 => (V m c main_v12 : Vec Ideal S1x512 .f32) (ix2 0 k)) = fun k => m ((c : Thread nD τ).loc main_arg8) (ix1 k) :=
    funext (V12_apply m c)
  rw [h8, h9, h10, h11, h12]

end

/-- From memories agreeing on the arguments, the idealized kernel and the idealized reference both run, and end with the
    same result array: the reference's run states its result as its operations' term of the arguments, which is
    `result_eq`'s left side. -/
theorem algebraic : Cert.algebraic_KernelIdeal_ReferenceIdeal := by
  intro m ρ m' ρ' _ hagree
  refine ⟨fun c => Cert.KernelIdeal.HandValue.resK m c, Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v16_eq, a0, a1, a2, a3, a4, a5, a6, a7, a8]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
